-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16000x12544 : Shape := ⟨2, ![16000, 12544]⟩
abbrev S12544x1024 : Shape := ⟨2, ![12544, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x12 : Shape := ⟨2, ![1024, 12]⟩
abbrev S12 : Shape := ⟨1, ![12]⟩
abbrev S_ : Shape := ⟨0, ![]⟩

class Facts : Prop where
  bcast_S_S16000x12544 : S_.BroadcastsInDim S16000x12544 (![] : Fin 0 → Fin S16000x12544.rank)
  reducesTo_S16000x12544_S_d0_1 : S16000x12544.ReducesTo [0, 1] S_
  h_S_ : 0 < S_.numel
  bcast_S_S12544x1024 : S_.BroadcastsInDim S12544x1024 (![] : Fin 0 → Fin S12544x1024.rank)
  reducesTo_S12544x1024_S_d0_1 : S12544x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S1024x12 : S_.BroadcastsInDim S1024x12 (![] : Fin 0 → Fin S1024x12.rank)
  reducesTo_S1024x12_S_d0_1 : S1024x12.ReducesTo [0, 1] S_
  bcast_S_S12 : S_.BroadcastsInDim S12 (![] : Fin 0 → Fin S12.rank)
  reducesTo_S12_S_d0 : S12.ReducesTo [0] S_

variable [Facts]

def fn_part2 {F : FTy → Type} [FloatOps F] (main_arg7 : FVec F S1024x12 .f32) (main_arg8 : FVec F S12 .f32) (main_v33 : IVec S_ 1) : IVec S_ 1 :=
  let main_v34 : FVec F S1024x12 .f32 := Host.absf main_arg7
  let main_cst_12 : FVec F S_ .f32 := constant S_ .f32 0x7F800000#32
  let main_v35 : FVec F S1024x12 .f32 := broadcastInDim S1024x12 ![] bcast_S_S1024x12 main_cst_12
  let main_v36 : IVec S1024x12 1 := cmpf .olt main_v34 main_v35
  let main_c_13 : IVec S_ 1 := constantI S_ 1 1#1
  let main_v37 : IVec S_ 1 := (fun x v => Host.reduce IntOp.andi x v reducesTo_S1024x12_S_d0_1 h_S_) main_v36 main_c_13
  let main_v38 : IVec S_ 1 := andi main_v33 main_v37
  let main_v39 : FVec F S12 .f32 := Host.absf main_arg8
  let main_cst_14 : FVec F S_ .f32 := constant S_ .f32 0x7F800000#32
  let main_v40 : FVec F S12 .f32 := broadcastInDim S12 ![] bcast_S_S12 main_cst_14
  let main_v41 : IVec S12 1 := cmpf .olt main_v39 main_v40
  let main_c_15 : IVec S_ 1 := constantI S_ 1 1#1
  let main_v42 : IVec S_ 1 := (fun x v => Host.reduce IntOp.andi x v reducesTo_S12_S_d0 h_S_) main_v41 main_c_15
  let main_v43 : IVec S_ 1 := andi main_v38 main_v42
  main_v43

def fn_part1 {F : FTy → Type} [FloatOps F] (main_arg4 : FVec F S1024 .f32) (main_arg5 : FVec F S1024x4 .f32) (main_arg6 : FVec F S4 .f32) (main_arg7 : FVec F S1024x12 .f32) (main_arg8 : FVec F S12 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x4 .f32 := Host.absf main_arg5
  let main_cst_8 : FVec F S_ .f32 := constant S_ .f32 0x7F800000#32
  let main_v25 : FVec F S1024x4 .f32 := broadcastInDim S1024x4 ![] bcast_S_S1024x4 main_cst_8
  let main_v26 : IVec S1024x4 1 := cmpf .olt main_v24 main_v25
  let main_c_9 : IVec S_ 1 := constantI S_ 1 1#1
  let main_v27 : IVec S_ 1 := (fun x v => Host.reduce IntOp.andi x v reducesTo_S1024x4_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg7 main_arg8 main_v33

def fn {F : FTy → Type} [FloatOps F] (main_arg0 : FVec F S16000x12544 .f32) (main_arg1 : FVec F S12544x1024 .f32) (main_arg2 : FVec F S1024 .f32) (main_arg3 : FVec F S1024x1024 .f32) (main_arg4 : FVec F S1024 .f32) (main_arg5 : FVec F S1024x4 .f32) (main_arg6 : FVec F S4 .f32) (main_arg7 : FVec F S1024x12 .f32) (main_arg8 : FVec F S12 .f32) : IVec S_ 1 :=
  let main_v0 : FVec F S16000x12544 .f32 := Host.absf main_arg0
  let main_cst : FVec F S_ .f32 := constant S_ .f32 0x7F800000#32
  let main_v1 : FVec F S16000x12544 .f32 := broadcastInDim S16000x12544 ![] bcast_S_S16000x12544 main_cst
  let main_v2 : IVec S16000x12544 1 := cmpf .olt main_v0 main_v1
  let main_c : IVec S_ 1 := constantI S_ 1 1#1
  let main_v3 : IVec S_ 1 := (fun x v => Host.reduce IntOp.andi x v reducesTo_S16000x12544_S_d0_1 h_S_) main_v2 main_c
  let main_v4 : FVec F S12544x1024 .f32 := Host.absf main_arg1
  let main_cst_0 : FVec F S_ .f32 := constant S_ .f32 0x7F800000#32
  let main_v5 : FVec F S12544x1024 .f32 := broadcastInDim S12544x1024 ![] bcast_S_S12544x1024 main_cst_0
  let main_v6 : IVec S12544x1024 1 := cmpf .olt main_v4 main_v5
  let main_c_1 : IVec S_ 1 := constantI S_ 1 1#1
  let main_v7 : IVec S_ 1 := (fun x v => Host.reduce IntOp.andi x v reducesTo_S12544x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S16000x12544 : Shape := ⟨2, ![16000, 12544]⟩
abbrev S12544x1024 : Shape := ⟨2, ![12544, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x12 : Shape := ⟨2, ![1024, 12]⟩
abbrev S12 : Shape := ⟨1, ![12]⟩
abbrev S16000x4 : Shape := ⟨2, ![16000, 4]⟩
abbrev S16000x12 : Shape := ⟨2, ![16000, 12]⟩
abbrev S800x1792 : Shape := ⟨2, ![800, 1792]⟩
abbrev S1792x1024 : Shape := ⟨2, ![1792, 1024]⟩
abbrev S800x4 : Shape := ⟨2, ![800, 4]⟩
abbrev S800x12 : Shape := ⟨2, ![800, 12]⟩
abbrev S800x1024 : Shape := ⟨2, ![800, 1024]⟩
abbrev S1x1024 : Shape := ⟨2, ![1, 1024]⟩
abbrev S1x4 : Shape := ⟨2, ![1, 4]⟩
abbrev S1x12 : Shape := ⟨2, ![1, 12]⟩

abbrev nBuf : Space → Nat
  | .hbm => 16
  | .vmem => 16
  | .smem => 0
  | _ => 0

abbrev bufTy : (tb : Table) → Fin (tcTables nBuf tb) → BufTy
  | .hbm, ⟨0, _⟩ => ⟨S16000x12544, .f32⟩
  | .hbm, ⟨1, _⟩ => ⟨S12544x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x12, .f32⟩
  | .hbm, ⟨8, _⟩ => ⟨S12, .f32⟩
  | .hbm, ⟨9, _⟩ => ⟨S16000x12544, .bf16⟩
  | .hbm, ⟨10, _⟩ => ⟨S12544x1024, .bf16⟩
  | .hbm, ⟨11, _⟩ => ⟨S1024x1024, .bf16⟩
  | .hbm, ⟨12, _⟩ => ⟨S1024x4, .bf16⟩
  | .hbm, ⟨13, _⟩ => ⟨S1024x12, .bf16⟩
  | .hbm, ⟨14, _⟩ => ⟨S16000x4, .f32⟩
  | .hbm, ⟨15, _⟩ => ⟨S16000x12, .f32⟩
  | .local _ .vmem, ⟨0, _⟩ => ⟨S800x1792, .bf16⟩
  | .local _ .vmem, ⟨1, _⟩ => ⟨S800x1792, .bf16⟩
  | .local _ .vmem, ⟨2, _⟩ => ⟨S1792x1024, .bf16⟩
  | .local _ .vmem, ⟨3, _⟩ => ⟨S1792x1024, .bf16⟩
  | .local _ .vmem, ⟨4, _⟩ => ⟨S1024, .f32⟩
  | .local _ .vmem, ⟨5, _⟩ => ⟨S1024x1024, .bf16⟩
  | .local _ .vmem, ⟨6, _⟩ => ⟨S1024, .f32⟩
  | .local _ .vmem, ⟨7, _⟩ => ⟨S1024x4, .bf16⟩
  | .local _ .vmem, ⟨8, _⟩ => ⟨S4, .f32⟩
  | .local _ .vmem, ⟨9, _⟩ => ⟨S1024x12, .bf16⟩
  | .local _ .vmem, ⟨10, _⟩ => ⟨S12, .f32⟩
  | .local _ .vmem, ⟨11, _⟩ => ⟨S800x4, .f32⟩
  | .local _ .vmem, ⟨12, _⟩ => ⟨S800x4, .f32⟩
  | .local _ .vmem, ⟨13, _⟩ => ⟨S800x12, .f32⟩
  | .local _ .vmem, ⟨14, _⟩ => ⟨S800x12, .f32⟩
  | .local _ .vmem, ⟨15, _⟩ => ⟨S800x1024, .f32⟩
  | _, _ => ⟨S16000x12544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![20, 7], ![false, false]⟩

def k0_cond2 (i : grid0.Coords) : BitVec 1 :=
  let arg1 : BitVec 32 := BitVec.ofNat 32 (i 1).val
  let c6_i32 : BitVec 32 := 6#32
  let v13 : BitVec 1 := Scalar.cmpi .eq arg1 c6_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S800x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1792x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x4 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x12 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S12 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S800x4 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S800x12 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  bitsLt_bf16_f32 : FTy.bits .bf16 < FTy.bits .f32
  inb_S800x1024_S800x1024_0_0 : ∀ a, (![0, 0] : Fin 2 → Nat) a + S800x1024.size a ≤ S800x1024.size a
  h_S800x1024 : 0 < S800x1024.numel
  shapeCasts_S800x1024_S800x1024 : S800x1024.ShapeCasts S800x1024
  inb_S800x1792_S800x1792_0_0 : ∀ a, (![0, 0] : Fin 2 → Nat) a + S800x1792.size a ≤ S800x1792.size a
  h_S800x1792 : 0 < S800x1792.numel
  shapeCasts_S800x1792_S800x1792 : S800x1792.ShapeCasts S800x1792
  inb_S1792x1024_S1792x1024_0_0 : ∀ a, (![0, 0] : Fin 2 → Nat) a + S1792x1024.size a ≤ S1792x1024.size a
  h_S1792x1024 : 0 < S1792x1024.numel
  shapeCasts_S1792x1024_S1792x1024 : S1792x1024.ShapeCasts S1792x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S800x1024 : S1x1024.Broadcasts S800x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x4_S1024x4_0_0 : ∀ a, (![0, 0] : Fin 2 → Nat) a + S1024x4.size a ≤ S1024x4.size a
  h_S1024x4 : 0 < S1024x4.numel
  shapeCasts_S1024x4_S1024x4 : S1024x4.ShapeCasts S1024x4
  inb_S4_S4_0 : ∀ a, (![0] : Fin 1 → Nat) a + S4.size a ≤ S4.size a
  h_S4 : 0 < S4.numel
  shapeCasts_S4_S1x4 : S4.ShapeCasts S1x4
  broadcasts_S1x4_S800x4 : S1x4.Broadcasts S800x4
  inb_S1024x12_S1024x12_0_0 : ∀ a, (![0, 0] : Fin 2 → Nat) a + S1024x12.size a ≤ S1024x12.size a
  h_S1024x12 : 0 < S1024x12.numel
  shapeCasts_S1024x12_S1024x12 : S1024x12.ShapeCasts S1024x12
  inb_S12_S12_0 : ∀ a, (![0] : Fin 1 → Nat) a + S12.size a ≤ S12.size a
  h_S12 : 0 < S12.numel
  shapeCasts_S12_S1x12 : S12.ShapeCasts S1x12
  broadcasts_S1x12_S800x12 : S1x12.Broadcasts S800x12
  inb_S800x4_S800x4_0_0 : ∀ a, (![0, 0] : Fin 2 → Nat) a + S800x4.size a ≤ S800x4.size a
  h_S800x4 : 0 < S800x4.numel
  inb_S800x12_S800x12_0_0 : ∀ a, (![0, 0] : Fin 2 → Nat) a + S800x12.size a ≤ S800x12.size a
  h_S800x12 : 0 < S800x12.numel
  dot_S800x1792_S1792x1024_S800x1024_1_0_0_1_n_n_wf : DotDims.WF S800x1792 S1792x1024 S800x1024 [1] [0] [0] [1] [] []
  dot_S800x1024_S1024x1024_S800x1024_1_0_0_1_n_n_wf : DotDims.WF S800x1024 S1024x1024 S800x1024 [1] [0] [0] [1] [] []
  dot_S800x1024_S1024x4_S800x4_1_0_0_1_n_n_wf : DotDims.WF S800x1024 S1024x4 S800x4 [1] [0] [0] [1] [] []
  dot_S800x1024_S1024x12_S800x12_1_0_0_1_n_n_wf : DotDims.WF S800x1024 S1024x12 S800x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x1792.size a ≤ S16000x12544.size a
  hwx0_0 : ∀ i : grid0.Coords, EltTy.bits .bf16 = 32 ∨ (Rect.block (s := S16000x12544) S800x1792.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1792x1024.size a ≤ S12544x1024.size a
  hwx0_1 : ∀ i : grid0.Coords, EltTy.bits .bf16 = 32 ∨ (Rect.block (s := S12544x1024) S1792x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x4.size a ≤ S1024x4.size a
  hwx0_5 : ∀ i : grid0.Coords, EltTy.bits .bf16 = 32 ∨ (Rect.block (s := S1024x4) S1024x4.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4.size a ≤ S4.size a
  hwx0_6 : ∀ i : grid0.Coords, EltTy.bits .f32 = 32 ∨ (Rect.block (s := S4) S4.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x12.size a ≤ S1024x12.size a
  hwx0_7 : ∀ i : grid0.Coords, EltTy.bits .bf16 = 32 ∨ (Rect.block (s := S1024x12) S1024x12.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S12.size a ≤ S12.size a
  hwx0_8 : ∀ i : grid0.Coords, EltTy.bits .f32 = 32 ∨ (Rect.block (s := S12) S12.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S800x4.size a ≤ S16000x4.size a
  hwx0_9 : ∀ i : grid0.Coords, EltTy.bits .f32 = 32 ∨ (Rect.block (s := S16000x4) S800x4.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S800x12.size a ≤ S16000x12.size a
  hwx0_10 : ∀ i : grid0.Coords, EltTy.bits .f32 = 32 ∨ (Rect.block (s := S16000x12) S800x12.size (cc0_transform_10 i) (hinb0_10 i)).WholeWords (EltTy.packing .f32)

variable [Facts₀]

def dot_S800x1792_S1792x1024_S800x1024_1_0_0_1_n_n : DotDims S800x1792 S1792x1024 S800x1024 where
  lhsContracting := [1]
  rhsContracting := [0]
  lhsNonContracting := [0]
  rhsNonContracting := [1]
  lhsBatch := []
  rhsBatch := []
  wf := dot_S800x1792_S1792x1024_S800x1024_1_0_0_1_n_n_wf
def dot_S800x1024_S1024x1024_S800x1024_1_0_0_1_n_n : DotDims S800x1024 S1024x1024 S800x1024 where
  lhsContracting := [1]
  rhsContracting := [0]
  lhsNonContracting := [0]
  rhsNonContracting := [1]
  lhsBatch := []
  rhsBatch := []
  wf := dot_S800x1024_S1024x1024_S800x1024_1_0_0_1_n_n_wf
def dot_S800x1024_S1024x4_S800x4_1_0_0_1_n_n : DotDims S800x1024 S1024x4 S800x4 where
  lhsContracting := [1]
  rhsContracting := [0]
  lhsNonContracting := [0]
  rhsNonContracting := [1]
  lhsBatch := []
  rhsBatch := []
  wf := dot_S800x1024_S1024x4_S800x4_1_0_0_1_n_n_wf
def dot_S800x1024_S1024x12_S800x12_1_0_0_1_n_n : DotDims S800x1024 S1024x12 S800x12 where
  lhsContracting := [1]
  rhsContracting := [0]
  lhsNonContracting := [0]
  rhsNonContracting := [1]
  lhsBatch := []
  rhsBatch := []
  wf := dot_S800x1024_S1024x12_S800x12_1_0_0_1_n_n_wf

abbrev win0_0 : Pipeline.Window sig grid0 :=
  Pipeline.Window.ofSpec (Memref.whole main_v0) S800x1792.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1792x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1024x12.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S12.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5_0) S800x4.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5_1) S800x12.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | 10 => fun i => !(k0_cond2 i == 1#1) | ⟨_ + 11, h⟩ => absurd h (Nat.not_lt.2 (Nat.le_add_left _ _))

class Facts : Prop extends Facts₀ where

variable [Facts]
-- ==== ReferenceIdeal.lean ====
abbrev S16000x12544 : Shape := ⟨2, ![16000, 12544]⟩
abbrev S12544x1024 : Shape := ⟨2, ![12544, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x12 : Shape := ⟨2, ![1024, 12]⟩
abbrev S12 : Shape := ⟨1, ![12]⟩
abbrev S16000x1024 : Shape := ⟨2, ![16000, 1024]⟩
abbrev S1x1024 : Shape := ⟨2, ![1, 1024]⟩
abbrev S_ : Shape := ⟨0, ![]⟩
abbrev S16000x4 : Shape := ⟨2, ![16000, 4]⟩
abbrev S1x4 : Shape := ⟨2, ![1, 4]⟩
abbrev S16000x12 : Shape := ⟨2, ![16000, 12]⟩
abbrev S1x12 : Shape := ⟨2, ![1, 12]⟩

abbrev nBuf : Space → Nat
  | .hbm => 31
  | .vmem => 0
  | .smem => 0
  | _ => 0

abbrev bufTy : (tb : Table) → Fin (tcTables nBuf tb) → BufTy
  | .hbm, ⟨0, _⟩ => ⟨S16000x12544, .f32⟩
  | .hbm, ⟨1, _⟩ => ⟨S12544x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x12, .f32⟩
  | .hbm, ⟨8, _⟩ => ⟨S12, .f32⟩
  | .hbm, ⟨9, _⟩ => ⟨S16000x1024, .f32⟩
  | .hbm, ⟨10, _⟩ => ⟨S1x1024, .f32⟩
  | .hbm, ⟨11, _⟩ => ⟨S16000x1024, .f32⟩
  | .hbm, ⟨12, _⟩ => ⟨S16000x1024, .f32⟩
  | .hbm, ⟨13, _⟩ => ⟨S_, .f32⟩
  | .hbm, ⟨14, _⟩ => ⟨S16000x1024, .f32⟩
  | .hbm, ⟨15, _⟩ => ⟨S16000x1024, .f32⟩
  | .hbm, ⟨16, _⟩ => ⟨S16000x1024, .f32⟩
  | .hbm, ⟨17, _⟩ => ⟨S1x1024, .f32⟩
  | .hbm, ⟨18, _⟩ => ⟨S16000x1024, .f32⟩
  | .hbm, ⟨19, _⟩ => ⟨S16000x1024, .f32⟩
  | .hbm, ⟨20, _⟩ => ⟨S_, .f32⟩
  | .hbm, ⟨21, _⟩ => ⟨S16000x1024, .f32⟩
  | .hbm, ⟨22, _⟩ => ⟨S16000x1024, .f32⟩
  | .hbm, ⟨23, _⟩ => ⟨S16000x4, .f32⟩
  | .hbm, ⟨24, _⟩ => ⟨S1x4, .f32⟩
  | .hbm, ⟨25, _⟩ => ⟨S16000x4, .f32⟩
  | .hbm, ⟨26, _⟩ => ⟨S16000x4, .f32⟩
  | .hbm, ⟨27, _⟩ => ⟨S16000x12, .f32⟩
  | .hbm, ⟨28, _⟩ => ⟨S1x12, .f32⟩
  | .hbm, ⟨29, _⟩ => ⟨S16000x12, .f32⟩
  | .hbm, ⟨30, _⟩ => ⟨S16000x12, .f32⟩
  | _, _ => ⟨S16000x12544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S16000x1024_0_1 : S1x1024.BroadcastsInDim S16000x1024 (![0, 1] : Fin 2 → Fin S16000x1024.rank)
  bcast_S_S16000x1024 : S_.BroadcastsInDim S16000x1024 (![] : Fin 0 → Fin S16000x1024.rank)
  bcast_S4_S1x4_1 : S4.BroadcastsInDim S1x4 (![1] : Fin 1 → Fin S1x4.rank)
  bcast_S1x4_S16000x4_0_1 : S1x4.BroadcastsInDim S16000x4 (![0, 1] : Fin 2 → Fin S16000x4.rank)
  bcast_S12_S1x12_1 : S12.BroadcastsInDim S1x12 (![1] : Fin 1 → Fin S1x12.rank)
  bcast_S1x12_S16000x12_0_1 : S1x12.BroadcastsInDim S16000x12 (![0, 1] : Fin 2 → Fin S16000x12.rank)
  dot_S16000x12544_S12544x1024_S16000x1024_1_0_0_1_n_n_wf : DotDims.WF S16000x12544 S12544x1024 S16000x1024 [1] [0] [0] [1] [] []
  dot_S16000x1024_S1024x1024_S16000x1024_1_0_0_1_n_n_wf : DotDims.WF S16000x1024 S1024x1024 S16000x1024 [1] [0] [0] [1] [] []
  dot_S16000x1024_S1024x4_S16000x4_1_0_0_1_n_n_wf : DotDims.WF S16000x1024 S1024x4 S16000x4 [1] [0] [0] [1] [] []
  dot_S16000x1024_S1024x12_S16000x12_1_0_0_1_n_n_wf : DotDims.WF S16000x1024 S1024x12 S16000x12 [1] [0] [0] [1] [] []

variable [Facts₀]

def dot_S16000x12544_S12544x1024_S16000x1024_1_0_0_1_n_n : DotDims S16000x12544 S12544x1024 S16000x1024 where
  lhsContracting := [1]
  rhsContracting := [0]
  lhsNonContracting := [0]
  rhsNonContracting := [1]
  lhsBatch := []
  rhsBatch := []
  wf := dot_S16000x12544_S12544x1024_S16000x1024_1_0_0_1_n_n_wf
def dot_S16000x1024_S1024x1024_S16000x1024_1_0_0_1_n_n : DotDims S16000x1024 S1024x1024 S16000x1024 where
  lhsContracting := [1]
  rhsContracting := [0]
  lhsNonContracting := [0]
  rhsNonContracting := [1]
  lhsBatch := []
  rhsBatch := []
  wf := dot_S16000x1024_S1024x1024_S16000x1024_1_0_0_1_n_n_wf
def dot_S16000x1024_S1024x4_S16000x4_1_0_0_1_n_n : DotDims S16000x1024 S1024x4 S16000x4 where
  lhsContracting := [1]
  rhsContracting := [0]
  lhsNonContracting := [0]
  rhsNonContracting := [1]
  lhsBatch := []
  rhsBatch := []
  wf := dot_S16000x1024_S1024x4_S16000x4_1_0_0_1_n_n_wf
def dot_S16000x1024_S1024x12_S16000x12_1_0_0_1_n_n : DotDims S16000x1024 S1024x12 S16000x12 where
  lhsContracting := [1]
  rhsContracting := [0]
  lhsNonContracting := [0]
  rhsNonContracting := [1]
  lhsBatch := []
  rhsBatch := []
  wf := dot_S16000x1024_S1024x12_S16000x12_1_0_0_1_n_n_wf

class Facts : Prop extends Facts₀ where

variable [Facts]
-- ==== Proof.HeadSpec.lean ====
/-
  The dense detection head as one function of its nine argument arrays, entry by entry, over the extended reals:

    hidden₁[r, i] = max (Σₖ x[r, k] · W₁[k, i] + b₁[i]) 0          (k over the 12544 features)
    hidden₂[r, j] = max (Σᵢ hidden₁[r, i] · W₂[i, j] + b₂[j]) 0
    out[r, q]     = Σⱼ hidden₂[r, j] · Wₒ[j, q] + bₒ[q]            (Wₒ, bₒ the class or the box layer)

  and the one law of sums the tiled product needs: a sum over 12544 = 7 · 1792 terms is the sum of its seven
  consecutive stretches of 1792 terms. Addition of extended reals is commutative and associative, so no
  finiteness is asked of any term.
-/
import Idealize.ShloMosaic.PureOps.Ideal
import Idealize.ShloMosaic.PureOps.Ideal.Laws
import Idealize.ShloMosaic.Lib.ValueIdx

noncomputable section

namespace Cert.HeadSpec

open Idealize.ShloMosaic Idealize.ShloMosaic.ValueIdx

/-- The zero both programs compare against, as they write it. -/
abbrev zero : EReal := Ideal.ofBits .f32 0x00000000#32

/-- `x · W₁` at row `r`, column `i`: the sum over all 12544 features. -/
def lin1 (X : (⟨2, ![16000, 12544]⟩ : Shape).Idx → EReal) (W1 : (⟨2, ![12544, 1024]⟩ : Shape).Idx → EReal)
    (r : Fin 16000) (i : Fin 1024) : EReal :=
  ∑ k : Fin 12544, X (ix2 r k) * W1 (ix2 k i)

/-- The first hidden layer: `max (x · W₁ + b₁) 0`. -/
def hid1 (X : (⟨2, ![16000, 12544]⟩ : Shape).Idx → EReal) (W1 : (⟨2, ![12544, 1024]⟩ : Shape).Idx → EReal)
    (b1 : (⟨1, ![1024]⟩ : Shape).Idx → EReal) (r : Fin 16000) (i : Fin 1024) : EReal :=
  max (lin1 X W1 r i + b1 (ix1 i)) zero

/-- The second hidden layer: `max (hidden₁ · W₂ + b₂) 0`. -/
def hid2 (X : (⟨2, ![16000, 12544]⟩ : Shape).Idx → EReal) (W1 : (⟨2, ![12544, 1024]⟩ : Shape).Idx → EReal)
    (b1 : (⟨1, ![1024]⟩ : Shape).Idx → EReal) (W2 : (⟨2, ![1024, 1024]⟩ : Shape).Idx → EReal)
    (b2 : (⟨1, ![1024]⟩ : Shape).Idx → EReal) (r : Fin 16000) (j : Fin 1024) : EReal :=
  max ((∑ i : Fin 1024, hid1 X W1 b1 r i * W2 (ix2 i j)) + b2 (ix1 j)) zero

/-- An output layer of width `n` at row `r`, column `q`: `hidden₂ · Wₒ + bₒ`. -/
def outAt {n : ℕ} (X : (⟨2, ![16000, 12544]⟩ : Shape).Idx → EReal) (W1 : (⟨2, ![12544, 1024]⟩ : Shape).Idx → EReal)
    (b1 : (⟨1, ![1024]⟩ : Shape).Idx → EReal) (W2 : (⟨2, ![1024, 1024]⟩ : Shape).Idx → EReal)
    (b2 : (⟨1, ![1024]⟩ : Shape).Idx → EReal) (Wo : (⟨2, ![1024, n]⟩ : Shape).Idx → EReal)
    (bo : (⟨1, ![n]⟩ : Shape).Idx → EReal) (r : Fin 16000) (q : Fin n) : EReal :=
  (∑ j : Fin 1024, hid2 X W1 b1 W2 b2 r j * Wo (ix2 j q)) + bo (ix1 q)

/-- The output layer as a whole `[16000, n]` array. -/
def outArr {n : ℕ} (X : (⟨2, ![16000, 12544]⟩ : Shape).Idx → EReal) (W1 : (⟨2, ![12544, 1024]⟩ : Shape).Idx → EReal)
    (b1 : (⟨1, ![1024]⟩ : Shape).Idx → EReal) (W2 : (⟨2, ![1024, 1024]⟩ : Shape).Idx → EReal)
    (b2 : (⟨1, ![1024]⟩ : Shape).Idx → EReal) (Wo : (⟨2, ![1024, n]⟩ : Shape).Idx → EReal)
    (bo : (⟨1, ![n]⟩ : Shape).Idx → EReal) : (⟨2, ![16000, n]⟩ : Shape).Idx → EReal :=
  fun y => outAt X W1 b1 W2 b2 Wo bo ⟨(y 0).val, idx2_lt0 y⟩ ⟨(y 1).val, idx2_lt1 y⟩

theorem outArr_ix2 {n : ℕ} (X : (⟨2, ![16000, 12544]⟩ : Shape).Idx → EReal) (W1 : (⟨2, ![12544, 1024]⟩ : Shape).Idx → EReal)
    (b1 : (⟨1, ![1024]⟩ : Shape).Idx → EReal) (W2 : (⟨2, ![1024, 1024]⟩ : Shape).Idx → EReal)
    (b2 : (⟨1, ![1024]⟩ : Shape).Idx → EReal) (Wo : (⟨2, ![1024, n]⟩ : Shape).Idx → EReal)
    (bo : (⟨1, ![n]⟩ : Shape).Idx → EReal) (r : Fin 16000) (q : Fin n) :
    outArr X W1 b1 W2 b2 Wo bo (ix2 r q) = outAt X W1 b1 W2 b2 Wo bo r q := rfl

/-- A sum of 12544 terms taken as seven consecutive stretches of 1792: term `1792·s + kk` is the `kk`-th of
    stretch `s`. -/
theorem sum_stretches (g : Fin 12544 → EReal) :
    ∑ k : Fin 12544, g k
      = ∑ s : Fin 7, ∑ kk : Fin 1792, g ⟨1792 * s.val + kk.val, by have := s.isLt; have := kk.isLt; omega⟩ := by
  rw [← Equiv.sum_comp (finProdFinEquiv (m := 7) (n := 1792)) g, Fintype.sum_prod_type]
  refine Finset.sum_congr rfl fun s _ => Finset.sum_congr rfl fun kk _ => congrArg g (Fin.ext ?_)
  show kk.val + 1792 * s.val = 1792 * s.val + kk.val
  omega

end Cert.HeadSpec

end
-- ==== Proof.RefSpec.lean ====
/-
  The reference's two results are the specification's output layers of its arguments. Each host operation is read at
  an index: a product as the sum over the contracted coordinate, a bias spread over the rows as the bias at the column,
  the rectifier as the maximum with zero. The sums, the additions and the maxima then stand in the specification's own
  order, so nothing is rearranged.
-/
import proofs.«118941_j32427003085530_1_alg».proof.Proof.Gen.ReferenceIdeal.Read
import proofs.«118941_j32427003085530_1_alg».proof.Proof.HeadSpec

noncomputable section

namespace Cert.ReferenceIdeal.RefSpec

open Cert.ReferenceIdeal Cert.ReferenceIdeal.Gen Cert.ReferenceIdeal.Read Idealize.ShloMosaic Idealize.ShloMosaic.ValueIdx

/-! ## The operations' index maps at coordinates -/

theorem l0 (r : Fin 16000) (i : Fin 1024) (k : Fin 12544) : lidx_main_v0 (ix2 r i) k = ix2 r k :=
  funext fun a => Fin.ext (by match a with | ⟨0, _⟩ => rfl | ⟨1, _⟩ => rfl)
theorem r0 (r : Fin 16000) (i : Fin 1024) (k : Fin 12544) : ridx_main_v0 (ix2 r i) k = ix2 k i :=
  funext fun a => Fin.ext (by match a with | ⟨0, _⟩ => rfl | ⟨1, _⟩ => rfl)
theorem b1i (r : Fin 16000) (i : Fin 1024) : idx_main_v1 (idx_main_v2 (ix2 r i)) = ix1 i :=
  funext fun a => Fin.ext (by match a with | ⟨0, _⟩ => rfl)
theorem l5 (r : Fin 16000) (j : Fin 1024) (k : Fin 1024) : lidx_main_v5 (ix2 r j) k = ix2 r k :=
  funext fun a => Fin.ext (by match a with | ⟨0, _⟩ => rfl | ⟨1, _⟩ => rfl)
theorem r5 (r : Fin 16000) (j : Fin 1024) (k : Fin 1024) : ridx_main_v5 (ix2 r j) k = ix2 k j :=
  funext fun a => Fin.ext (by match a with | ⟨0, _⟩ => rfl | ⟨1, _⟩ => rfl)
theorem b2i (r : Fin 16000) (j : Fin 1024) : idx_main_v6 (idx_main_v7 (ix2 r j)) = ix1 j :=
  funext fun a => Fin.ext (by match a with | ⟨0, _⟩ => rfl)
theorem l10 (r : Fin 16000) (q : Fin 4) (k : Fin 1024) : lidx_main_v10 (ix2 r q) k = ix2 r k :=
  funext fun a => Fin.ext (by match a with | ⟨0, _⟩ => rfl | ⟨1, _⟩ => rfl)
theorem r10 (r : Fin 16000) (q : Fin 4) (k : Fin 1024) : ridx_main_v10 (ix2 r q) k = ix2 k q :=
  funext fun a => Fin.ext (by match a with | ⟨0, _⟩ => rfl | ⟨1, _⟩ => rfl)
theorem bci (r : Fin 16000) (q : Fin 4) : idx_main_v11 (idx_main_v12 (ix2 r q)) = ix1 q :=
  funext fun a => Fin.ext (by match a with | ⟨0, _⟩ => rfl)
theorem l14 (r : Fin 16000) (q : Fin 12) (k : Fin 1024) : lidx_main_v14 (ix2 r q) k = ix2 r k :=
  funext fun a => Fin.ext (by match a with | ⟨0, _⟩ => rfl | ⟨1, _⟩ => rfl)
theorem r14 (r : Fin 16000) (q : Fin 12) (k : Fin 1024) : ridx_main_v14 (ix2 r q) k = ix2 k q :=
  funext fun a => Fin.ext (by match a with | ⟨0, _⟩ => rfl | ⟨1, _⟩ => rfl)
theorem bri (r : Fin 16000) (q : Fin 12) : idx_main_v15 (idx_main_v16 (ix2 r q)) = ix1 q :=
  funext fun a => Fin.ext (by match a with | ⟨0, _⟩ => rfl)

/-! ## The layers -/

/-- The first rectified layer. -/
theorem hid1_eq (x0 : (⟨S16000x12544, .f32⟩ : BufTy).Contents (Elt Ideal)) (x1 : (⟨S12544x1024, .f32⟩ : BufTy).Contents (Elt Ideal)) (x2 : (⟨S1024, .f32⟩ : BufTy).Contents (Elt Ideal)) (r : Fin 16000) (i : Fin 1024) :
    val_main_v4 (F := Ideal) x0 x1 x2 (ix2 r i) = HeadSpec.hid1 x0 x1 x2 r i := by
  rw [val_main_v4_apply, val_main_v3_apply, val_main_v0_apply, val_main_v2_apply, val_main_v1_apply,
    val_main_call0_v0_apply, val_main_call0_cst_apply]
  simp only [l0, r0, b1i]
  rfl

/-- The second rectified layer. -/
theorem hid2_eq (x0 : (⟨S16000x12544, .f32⟩ : BufTy).Contents (Elt Ideal)) (x1 : (⟨S12544x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal))
    (r : Fin 16000) (j : Fin 1024) :
    val_main_v9 (F := Ideal) x0 x1 x2 x3 x4 (ix2 r j) = HeadSpec.hid2 x0 x1 x2 x3 x4 r j := by
  rw [val_main_v9_apply, val_main_v8_apply, val_main_v5_apply, val_main_v7_apply, val_main_v6_apply,
    val_main_call1_v0_apply, val_main_call1_cst_apply]
  simp only [l5, r5, b2i, hid1_eq]
  rfl

/-- The class result. -/
theorem cls_eq (x0 : (⟨S16000x12544, .f32⟩ : BufTy).Contents (Elt Ideal)) (x1 : (⟨S12544x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal))
    (x5 : (⟨S1024x4, .f32⟩ : BufTy).Contents (Elt Ideal)) (x6 : (⟨S4, .f32⟩ : BufTy).Contents (Elt Ideal)) :
    val_main_v13 (F := Ideal) x0 x1 x2 x3 x4 x5 x6 = HeadSpec.outArr x0 x1 x2 x3 x4 x5 x6 := by
  funext y
  obtain ⟨r, q, rfl⟩ : ∃ (r : Fin 16000) (q : Fin 4), y = ix2 r q := ⟨y 0, y 1, eq_ix2 y⟩
  rw [HeadSpec.outArr_ix2, val_main_v13_apply, val_main_v10_apply, val_main_v12_apply, val_main_v11_apply]
  simp only [l10, r10, bci, hid2_eq]
  rfl

/-- The box result. -/
theorem box_eq (x0 : (⟨S16000x12544, .f32⟩ : BufTy).Contents (Elt Ideal)) (x1 : (⟨S12544x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal))
    (x7 : (⟨S1024x12, .f32⟩ : BufTy).Contents (Elt Ideal)) (x8 : (⟨S12, .f32⟩ : BufTy).Contents (Elt Ideal)) :
    val_main_v17 (F := Ideal) x0 x1 x2 x3 x4 x7 x8 = HeadSpec.outArr x0 x1 x2 x3 x4 x7 x8 := by
  funext y
  obtain ⟨r, q, rfl⟩ : ∃ (r : Fin 16000) (q : Fin 12), y = ix2 r q := ⟨y 0, y 1, eq_ix2 y⟩
  rw [HeadSpec.outArr_ix2, val_main_v17_apply, val_main_v14_apply, val_main_v16_apply, val_main_v15_apply]
  simp only [l14, r14, bri, hid2_eq]
  rfl

end Cert.ReferenceIdeal.RefSpec

end
-- ==== Proof.Pieces.lean ====
/-
  What one run of the kernel body leaves behind, as plain terms of what it loaded. The body always adds one stretch's
  product to the accumulator, after clearing it when the stretch is the first; when the stretch is the last it also
  stores the two results computed from the accumulator it has just updated. So, with `step acc x w = acc + x · w`:

    first stretch : accumulator := step 0 x w
    later stretch : accumulator := step (what the stretch before left) x w
    last stretch  : the same, and class := class-head (accumulator), box := box-head (accumulator)

  A store covers its whole buffer, so what a buffer holds afterwards is the last value stored; a load that follows a
  store in the same run reads the value stored.
-/
import proofs.«118941_j32427003085530_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- First stretch: the accumulator is cleared, then holds the cleared block plus this stretch's product. -/
theorem acc_first (c : Dev nD) (i : grid0.Coords) (arg2 : Memref sig .tc .vmem S800x1792 .bf16) (harg2 : arg2.IsWhole) (arg3 : Memref sig .tc .vmem S1792x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x4 .bf16) (harg7 : arg7.IsWhole) (arg8 : Memref sig .tc .vmem S4 .f32) (harg8 : arg8.IsWhole) (arg9 : Memref sig .tc .vmem S1024x12 .bf16) (harg9 : arg9.IsWhole) (arg10 : Memref sig .tc .vmem S12 .f32) (harg10 : arg10.IsWhole) (arg11 : Memref sig .tc .vmem S800x4 .f32) (harg11 : arg11.IsWhole) (arg12 : Memref sig .tc .vmem S800x12 .f32) (harg12 : arg12.IsWhole) (arg13 : Memref sig .tc .vmem S800x1024 .f32) (harg13 : arg13.IsWhole) (hc0 : cond0_0 i) (hc1 : ¬cond0_1 i) (x0 : Vec F S800x1792 .bf16) (x1 : Vec F S1792x1024 .bf16) (x2 : Vec F S1024 .f32) (x3 : Vec F S1024x1024 .bf16) (x4 : Vec F S1024 .f32) (x5 : Vec F S1024x4 .bf16) (x6 : Vec F S4 .f32) (x7 : Vec F S1024x12 .bf16) (x8 : Vec F S12 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = k0_pay2 k0_pay1 x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun0_A
  dsimp only
  sl_unfold_words
  rw [View.canon_cons_unit_zero (S := S800x1024) hz2]
  simp only [View.readAt_eq_ld, harg2.read_unread, harg3.read_unread, harg4.read_unread, harg5.read_unread, harg6.read_unread, harg7.read_unread, harg8.read_unread, harg9.read_unread, harg10.read_unread, harg13.read_unread,
    View.ld_unit_zero (S := S800x1792) hz2, View.ld_unit_zero (S := S1792x1024) hz2, View.ld_unit_zero (S := S800x1024) hz2, View.ld_unit_zero (S := S1024x1024) hz2, View.ld_unit_zero (S := S1024x4) hz2, View.ld_unit_zero (S := S1024x12) hz2,
    View.ld_unit_zero (S := S1024) hz1, View.ld_unit_zero (S := S4) hz1, View.ld_unit_zero (S := S12) hz1, View.readCov_unit_zero (S := S800x1024) _ hz2]

/-- A middle stretch: the accumulator holds what the stretch before left plus this stretch's product. -/
theorem acc_middle (c : Dev nD) (i : grid0.Coords) (arg2 : Memref sig .tc .vmem S800x1792 .bf16) (harg2 : arg2.IsWhole) (arg3 : Memref sig .tc .vmem S1792x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x4 .bf16) (harg7 : arg7.IsWhole) (arg8 : Memref sig .tc .vmem S4 .f32) (harg8 : arg8.IsWhole) (arg9 : Memref sig .tc .vmem S1024x12 .bf16) (harg9 : arg9.IsWhole) (arg10 : Memref sig .tc .vmem S12 .f32) (harg10 : arg10.IsWhole) (arg11 : Memref sig .tc .vmem S800x4 .f32) (harg11 : arg11.IsWhole) (arg12 : Memref sig .tc .vmem S800x12 .f32) (harg12 : arg12.IsWhole) (arg13 : Memref sig .tc .vmem S800x1024 .f32) (harg13 : arg13.IsWhole) (hc0 : ¬cond0_0 i) (hc1 : ¬cond0_1 i) (x0 : Vec F S800x1792 .bf16) (x1 : Vec F S1792x1024 .bf16) (x2 : Vec F S1024 .f32) (x3 : Vec F S1024x1024 .bf16) (x4 : Vec F S1024 .f32) (x5 : Vec F S1024x4 .bf16) (x6 : Vec F S4 .f32) (x7 : Vec F S1024x12 .bf16) (x8 : Vec F S12 .f32) (xs0 : Vec F S800x1024 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = k0_pay2 xs0 x0 x1 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg13.read_unread,
    View.ld_unit_zero (S := S800x1792) hz2, View.ld_unit_zero (S := S1792x1024) hz2, View.ld_unit_zero (S := S800x1024) hz2, View.ld_unit_zero (S := S1024x1024) hz2, View.ld_unit_zero (S := S1024x4) hz2, View.ld_unit_zero (S := S1024x12) hz2,
    View.ld_unit_zero (S := S1024) hz1, View.ld_unit_zero (S := S4) hz1, View.ld_unit_zero (S := S12) hz1]

/-- The last stretch updates the accumulator the same way. -/
theorem acc_last (c : Dev nD) (i : grid0.Coords) (arg2 : Memref sig .tc .vmem S800x1792 .bf16) (harg2 : arg2.IsWhole) (arg3 : Memref sig .tc .vmem S1792x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x4 .bf16) (harg7 : arg7.IsWhole) (arg8 : Memref sig .tc .vmem S4 .f32) (harg8 : arg8.IsWhole) (arg9 : Memref sig .tc .vmem S1024x12 .bf16) (harg9 : arg9.IsWhole) (arg10 : Memref sig .tc .vmem S12 .f32) (harg10 : arg10.IsWhole) (arg11 : Memref sig .tc .vmem S800x4 .f32) (harg11 : arg11.IsWhole) (arg12 : Memref sig .tc .vmem S800x12 .f32) (harg12 : arg12.IsWhole) (arg13 : Memref sig .tc .vmem S800x1024 .f32) (harg13 : arg13.IsWhole) (hc0 : ¬cond0_0 i) (hc1 : cond0_1 i) (x0 : Vec F S800x1792 .bf16) (x1 : Vec F S1792x1024 .bf16) (x2 : Vec F S1024 .f32) (x3 : Vec F S1024x1024 .bf16) (x4 : Vec F S1024 .f32) (x5 : Vec F S1024x4 .bf16) (x6 : Vec F S4 .f32) (x7 : Vec F S1024x12 .bf16) (x8 : Vec F S12 .f32) (xs0 : Vec F S800x1024 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = k0_pay2 xs0 x0 x1 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg13.read_unread,
    View.ld_unit_zero (S := S800x1792) hz2, View.ld_unit_zero (S := S1792x1024) hz2, View.ld_unit_zero (S := S800x1024) hz2, View.ld_unit_zero (S := S1024x1024) hz2, View.ld_unit_zero (S := S1024x4) hz2, View.ld_unit_zero (S := S1024x12) hz2,
    View.ld_unit_zero (S := S1024) hz1, View.ld_unit_zero (S := S4) hz1, View.ld_unit_zero (S := S12) hz1]

/-- The last stretch's class block: the class head of the accumulator it has just updated. -/
theorem cls_last (c : Dev nD) (i : grid0.Coords) (arg2 : Memref sig .tc .vmem S800x1792 .bf16) (harg2 : arg2.IsWhole) (arg3 : Memref sig .tc .vmem S1792x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x4 .bf16) (harg7 : arg7.IsWhole) (arg8 : Memref sig .tc .vmem S4 .f32) (harg8 : arg8.IsWhole) (arg9 : Memref sig .tc .vmem S1024x12 .bf16) (harg9 : arg9.IsWhole) (arg10 : Memref sig .tc .vmem S12 .f32) (harg10 : arg10.IsWhole) (arg11 : Memref sig .tc .vmem S800x4 .f32) (harg11 : arg11.IsWhole) (arg12 : Memref sig .tc .vmem S800x12 .f32) (harg12 : arg12.IsWhole) (arg13 : Memref sig .tc .vmem S800x1024 .f32) (harg13 : arg13.IsWhole) (hc0 : ¬cond0_0 i) (hc1 : cond0_1 i) (x0 : Vec F S800x1792 .bf16) (x1 : Vec F S1792x1024 .bf16) (x2 : Vec F S1024 .f32) (x3 : Vec F S1024x1024 .bf16) (x4 : Vec F S1024 .f32) (x5 : Vec F S1024x4 .bf16) (x6 : Vec F S4 .f32) (x7 : Vec F S1024x12 .bf16) (x8 : Vec F S12 .f32) (xs0 : Vec F S800x1024 .f32) :
    out0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = k0_pay4 (k0_pay2 xs0 x0 x1) x2 x3 x4 x5 x6 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg13.read_unread,
    View.ld_unit_zero (S := S800x1792) hz2, View.ld_unit_zero (S := S1792x1024) hz2, View.ld_unit_zero (S := S800x1024) hz2, View.ld_unit_zero (S := S1024x1024) hz2, View.ld_unit_zero (S := S1024x4) hz2, View.ld_unit_zero (S := S1024x12) hz2,
    View.ld_unit_zero (S := S1024) hz1, View.ld_unit_zero (S := S4) hz1, View.ld_unit_zero (S := S12) hz1, View.readCov_unit_zero (S := S800x1024) _ hz2]

/-- The last stretch's box block: the box head of the same accumulator. -/
theorem box_last (c : Dev nD) (i : grid0.Coords) (arg2 : Memref sig .tc .vmem S800x1792 .bf16) (harg2 : arg2.IsWhole) (arg3 : Memref sig .tc .vmem S1792x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x4 .bf16) (harg7 : arg7.IsWhole) (arg8 : Memref sig .tc .vmem S4 .f32) (harg8 : arg8.IsWhole) (arg9 : Memref sig .tc .vmem S1024x12 .bf16) (harg9 : arg9.IsWhole) (arg10 : Memref sig .tc .vmem S12 .f32) (harg10 : arg10.IsWhole) (arg11 : Memref sig .tc .vmem S800x4 .f32) (harg11 : arg11.IsWhole) (arg12 : Memref sig .tc .vmem S800x12 .f32) (harg12 : arg12.IsWhole) (arg13 : Memref sig .tc .vmem S800x1024 .f32) (harg13 : arg13.IsWhole) (hc0 : ¬cond0_0 i) (hc1 : cond0_1 i) (x0 : Vec F S800x1792 .bf16) (x1 : Vec F S1792x1024 .bf16) (x2 : Vec F S1024 .f32) (x3 : Vec F S1024x1024 .bf16) (x4 : Vec F S1024 .f32) (x5 : Vec F S1024x4 .bf16) (x6 : Vec F S4 .f32) (x7 : Vec F S1024x12 .bf16) (x8 : Vec F S12 .f32) (xs0 : Vec F S800x1024 .f32) :
    out0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = k0_pay5 (k0_pay2 xs0 x0 x1) x2 x3 x4 x7 x8 := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg13.read_unread,
    View.ld_unit_zero (S := S800x1792) hz2, View.ld_unit_zero (S := S1792x1024) hz2, View.ld_unit_zero (S := S800x1024) hz2, View.ld_unit_zero (S := S1024x1024) hz2, View.ld_unit_zero (S := S1024x4) hz2, View.ld_unit_zero (S := S1024x12) hz2,
    View.ld_unit_zero (S := S1024) hz1, View.ld_unit_zero (S := S4) hz1, View.ld_unit_zero (S := S12) hz1, View.readCov_unit_zero (S := S800x1024) _ hz2]

end Cert.KernelIdeal.Pieces

end
-- ==== Proof.Payload.lean ====
/-
  The kernel body's arithmetic read one entry at a time, over the extended reals. A product of the matrix unit into a
  zero accumulator is the plain sum of products over the contracted coordinate; a bias row spread over the rows of a
  block reads its one row; a change of float format is the identity. So:

    step acc xb wb [p, q]  = acc[p, q] + Σₖ xb[p, k] · wb[k, q]                         (one stretch of 1792 features)
    hidden a …   [p, j]    = max (Σᵢ max (a[p, i] + b₁[i]) 0 · W₂[i, j] + b₂[j]) 0
    class / box  [p, q]    = Σⱼ hidden[p, j] · Wₒ[j, q] + bₒ[q]
-/
import proofs.«118941_j32427003085530_1_alg».proof.Proof.Gen.KernelIdeal.Skeleton
import Idealize.ShloMosaic.Lib.ValueIdx
import Idealize.ShloMosaic.Lib.ValueLayout
import Idealize.ShloMosaic.Lib.StackMember
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- A plain `M×K` by `K×N` product of the matrix unit into the zero accumulator, at `(a, b)`: the sum over the
    contracted coordinate. It is the host's `dot_general` of the same operands, which the library reads so. -/
theorem matmul_plain_zero_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant ⟨2, ![M, N]⟩ .f32 0x00000000#32) (ix2 a b)
      = ∑ c : Fin K, A (ix2 a c) * B (ix2 c b) := by
  rw [← StackMember.dotGeneral_plain_apply none A B a b]
  show FloatOps.matmul _ prec A B _ (ix2 a b) = FloatOps.dotGeneral _ none _ A B (ix2 a b)
  rw [Ideal.matmul_constant_zero_apply, Ideal.dotGeneral_apply]

/-- One accumulation step at `(p, q)`: what was there plus this stretch's sum of products. -/
theorem step_apply (acc : Vec Ideal S800x1024 .f32) (xb : Vec Ideal S800x1792 .bf16) (wb : Vec Ideal S1792x1024 .bf16)
    (p : Fin 800) (q : Fin 1024) :
    k0_pay2 (F := Ideal) acc xb wb (ix2 p q) = acc (ix2 p q) + ∑ k : Fin 1792, xb (ix2 p k) * wb (ix2 k q) := by
  unfold k0_pay2
  simp only [shapeCast_self]
  show acc (ix2 p q) + matmul (F := Ideal) (DotDims.plain 800 1792 1024) none xb wb (constant ⟨2, ![800, 1024]⟩ .f32 0x00000000#32) (ix2 p q) = _
  rw [matmul_plain_zero_apply]

/-- A bias vector laid as one row and spread over the rows of a block reads, at `(p, q)`, the bias at `q`. -/
theorem bias_row_apply {α : Type} {A B : ℕ} (b : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ b h1) h2 (ix2 p q) = b (ix1 q) := by
  rw [broadcastTo_1b_ab_apply, shapeCast_a_1a_apply]

/-- The zero the body compares against is the extended real the specification names. -/
abbrev zero : EReal := Ideal.ofBits .f32 0x00000000#32

/-- The second hidden layer of a block at `(p, j)`, from the block's finished accumulator `a`. -/
theorem hidden_apply (a : Vec Ideal S800x1024 .f32) (b1 : Vec Ideal S1024 .f32) (w2 : Vec Ideal S1024x1024 .bf16)
    (b2 : Vec Ideal S1024 .f32) (p : Fin 800) (j : Fin 1024) :
    k0_pay3 (F := Ideal) a b1 w2 b2 (ix2 p j)
      = max ((∑ i : Fin 1024, max (a (ix2 p i) + b1 (ix1 i)) zero * w2 (ix2 i j)) + b2 (ix1 j)) zero := by
  unfold k0_pay3
  simp only [shapeCast_self]
  rw [truncf_apply, maximumf_apply, addf_apply, broadcast_apply, bias_row_apply]
  show max (matmul (F := Ideal) (DotDims.plain 800 1024 1024) none _ w2 (constant ⟨2, ![800, 1024]⟩ .f32 0x00000000#32) (ix2 p j) + b2 (ix1 j)) _ = _
  rw [matmul_plain_zero_apply]
  simp only [truncf_apply, maximumf_apply, addf_apply, broadcast_apply, bias_row_apply]
  rfl

/-- The class block at `(p, q)`. -/
theorem cls_apply (a : Vec Ideal S800x1024 .f32) (b1 : Vec Ideal S1024 .f32) (w2 : Vec Ideal S1024x1024 .bf16)
    (b2 : Vec Ideal S1024 .f32) (wc : Vec Ideal S1024x4 .bf16) (bc : Vec Ideal S4 .f32) (p : Fin 800) (q : Fin 4) :
    k0_pay4 (F := Ideal) a b1 w2 b2 wc bc (ix2 p q)
      = (∑ j : Fin 1024, k0_pay3 (F := Ideal) a b1 w2 b2 (ix2 p j) * wc (ix2 j q)) + bc (ix1 q) := by
  unfold k0_pay4
  simp only [shapeCast_self]
  rw [addf_apply, bias_row_apply]
  show matmul (F := Ideal) (DotDims.plain 800 1024 4) none _ wc (constant ⟨2, ![800, 4]⟩ .f32 0x00000000#32) (ix2 p q) + bc (ix1 q) = _
  rw [matmul_plain_zero_apply]

/-- The box block at `(p, q)`. -/
theorem box_apply (a : Vec Ideal S800x1024 .f32) (b1 : Vec Ideal S1024 .f32) (w2 : Vec Ideal S1024x1024 .bf16)
    (b2 : Vec Ideal S1024 .f32) (wr : Vec Ideal S1024x12 .bf16) (br : Vec Ideal S12 .f32) (p : Fin 800) (q : Fin 12) :
    k0_pay5 (F := Ideal) a b1 w2 b2 wr br (ix2 p q)
      = (∑ j : Fin 1024, k0_pay3 (F := Ideal) a b1 w2 b2 (ix2 p j) * wr (ix2 j q)) + br (ix1 q) := by
  unfold k0_pay5
  simp only [shapeCast_self]
  rw [addf_apply, bias_row_apply]
  show matmul (F := Ideal) (DotDims.plain 800 1024 12) none _ wr (constant ⟨2, ![800, 12]⟩ .f32 0x00000000#32) (ix2 p q) + br (ix1 q) = _
  rw [matmul_plain_zero_apply]

end Cert.KernelIdeal.Pay

end
-- ==== Proof.Blocks.lean ====
/-
  What each window of the call holds at a grid point, in terms of the nine argument arrays. The grid point number t
  stands for row tile t / 7 and feature stretch t % 7. The feature window is the [800, 1792] block of x at
  (row tile, stretch); the first weight's window is the [1792, 1024] block of W₁ at (stretch, 0); every other window
  is a whole array. Five of the arrays (x, W₁, W₂, W_class, W_box) reach the call narrowed to bf16 by the host, which
  changes no value over the extended reals.
-/
import proofs.«118941_j32427003085530_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.Blocks

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-! ## The windows' blocks, each at its literal type -/

abbrev xblk (c : Dev nD) (t : Fin cfg0.N) : Vec F S800x1792 .bf16 := iblk m c 0 t
abbrev w1blk (c : Dev nD) (t : Fin cfg0.N) : Vec F S1792x1024 .bf16 := iblk m c 1 t
abbrev b1blk (c : Dev nD) (t : Fin cfg0.N) : Vec F S1024 .f32 := iblk m c 2 t
abbrev w2blk (c : Dev nD) (t : Fin cfg0.N) : Vec F S1024x1024 .bf16 := iblk m c 3 t
abbrev b2blk (c : Dev nD) (t : Fin cfg0.N) : Vec F S1024 .f32 := iblk m c 4 t
abbrev wcblk (c : Dev nD) (t : Fin cfg0.N) : Vec F S1024x4 .bf16 := iblk m c 5 t
abbrev bcblk (c : Dev nD) (t : Fin cfg0.N) : Vec F S4 .f32 := iblk m c 6 t
abbrev wrblk (c : Dev nD) (t : Fin cfg0.N) : Vec F S1024x12 .bf16 := iblk m c 7 t
abbrev brblk (c : Dev nD) (t : Fin cfg0.N) : Vec F S12 .f32 := iblk m c 8 t

/-! ## The five narrowed arrays as the call finds them -/

/-- The array the window stages is the argument narrowed to bf16 by the host before the call. -/
theorem entry_main_v0 (c : Dev nD) : (V m c main_v0 : S16000x12544.Idx → Elt F .bf16) = truncf .bf16 (m ((c : Thread nD τ).loc main_arg0)) bitsLt_bf16_f32 := by
  dsimp only [Gen.V, Gen.hostOps0]; after_results

/-- The array the window stages is the argument narrowed to bf16 by the host before the call. -/
theorem entry_main_v1 (c : Dev nD) : (V m c main_v1 : S12544x1024.Idx → Elt F .bf16) = truncf .bf16 (m ((c : Thread nD τ).loc main_arg1)) bitsLt_bf16_f32 := by
  dsimp only [Gen.V, Gen.hostOps0]; after_results

/-- The array the window stages is the argument narrowed to bf16 by the host before the call. -/
theorem entry_main_v2 (c : Dev nD) : (V m c main_v2 : S1024x1024.Idx → Elt F .bf16) = truncf .bf16 (m ((c : Thread nD τ).loc main_arg3)) bitsLt_bf16_f32 := by
  dsimp only [Gen.V, Gen.hostOps0]; after_results

/-- The array the window stages is the argument narrowed to bf16 by the host before the call. -/
theorem entry_main_v3 (c : Dev nD) : (V m c main_v3 : S1024x4.Idx → Elt F .bf16) = truncf .bf16 (m ((c : Thread nD τ).loc main_arg5)) bitsLt_bf16_f32 := by
  dsimp only [Gen.V, Gen.hostOps0]; after_results

/-- The array the window stages is the argument narrowed to bf16 by the host before the call. -/
theorem entry_main_v4 (c : Dev nD) : (V m c main_v4 : S1024x12.Idx → Elt F .bf16) = truncf .bf16 (m ((c : Thread nD τ).loc main_arg7)) bitsLt_bf16_f32 := by
  dsimp only [Gen.V, Gen.hostOps0]; after_results

/-! ## The whole-array windows -/

/-- The first bias's window is the whole bias. -/
theorem b1blk_eq (c : Dev nD) (t : Fin cfg0.N) : b1blk m c t = m ((c : Thread nD τ).loc main_arg2) := by
  have hi : win0_2.index t 0 = 0 := (by decide +kernel : ∀ t : Fin grid0.N, win0_2.index t 0 = 0) t
  funext y
  unfold b1blk iblk
  rw [View.read_apply]
  show V m c main_arg2 _ = _
  rw [V_main_arg2 m c]
  congr 1
  funext a
  apply Fin.ext
  match a with
  | ⟨0, _⟩ => show win0_2.index t 0 * 1024 + 1 * (y 0).val = (y 0).val; rw [hi]; omega

/-- The second weight's window is the whole weight, narrowed. -/
theorem w2blk_eq (c : Dev nD) (t : Fin cfg0.N) : w2blk m c t = truncf .bf16 (m ((c : Thread nD τ).loc main_arg3)) bitsLt_bf16_f32 := by
  have hi : win0_3.index t 0 = 0 ∧ win0_3.index t 1 = 0 := (by decide +kernel : ∀ t : Fin grid0.N, win0_3.index t 0 = 0 ∧ win0_3.index t 1 = 0) t
  funext y
  unfold w2blk iblk
  rw [View.read_apply]
  show V m c main_v2 _ = _
  rw [entry_main_v2 m c]
  congr 1
  funext a
  apply Fin.ext
  match a with
  | ⟨0, _⟩ => show win0_3.index t 0 * 1024 + 1 * (y 0).val = (y 0).val; rw [hi.1]; omega
  | ⟨1, _⟩ => show win0_3.index t 1 * 1024 + 1 * (y 1).val = (y 1).val; rw [hi.2]; omega

/-- The second bias's window is the whole bias. -/
theorem b2blk_eq (c : Dev nD) (t : Fin cfg0.N) : b2blk m c t = m ((c : Thread nD τ).loc main_arg4) := by
  have hi : win0_4.index t 0 = 0 := (by decide +kernel : ∀ t : Fin grid0.N, win0_4.index t 0 = 0) t
  funext y
  unfold b2blk iblk
  rw [View.read_apply]
  show V m c main_arg4 _ = _
  rw [V_main_arg4 m c]
  congr 1
  funext a
  apply Fin.ext
  match a with
  | ⟨0, _⟩ => show win0_4.index t 0 * 1024 + 1 * (y 0).val = (y 0).val; rw [hi]; omega

/-- The class weight's window is the whole weight, narrowed. -/
theorem wcblk_eq (c : Dev nD) (t : Fin cfg0.N) : wcblk m c t = truncf .bf16 (m ((c : Thread nD τ).loc main_arg5)) bitsLt_bf16_f32 := by
  have hi : win0_5.index t 0 = 0 ∧ win0_5.index t 1 = 0 := (by decide +kernel : ∀ t : Fin grid0.N, win0_5.index t 0 = 0 ∧ win0_5.index t 1 = 0) t
  funext y
  unfold wcblk iblk
  rw [View.read_apply]
  show V m c main_v3 _ = _
  rw [entry_main_v3 m c]
  congr 1
  funext a
  apply Fin.ext
  match a with
  | ⟨0, _⟩ => show win0_5.index t 0 * 1024 + 1 * (y 0).val = (y 0).val; rw [hi.1]; omega
  | ⟨1, _⟩ => show win0_5.index t 1 * 4 + 1 * (y 1).val = (y 1).val; rw [hi.2]; omega

/-- The class bias's window is the whole bias. -/
theorem bcblk_eq (c : Dev nD) (t : Fin cfg0.N) : bcblk m c t = m ((c : Thread nD τ).loc main_arg6) := by
  have hi : win0_6.index t 0 = 0 := (by decide +kernel : ∀ t : Fin grid0.N, win0_6.index t 0 = 0) t
  funext y
  unfold bcblk iblk
  rw [View.read_apply]
  show V m c main_arg6 _ = _
  rw [V_main_arg6 m c]
  congr 1
  funext a
  apply Fin.ext
  match a with
  | ⟨0, _⟩ => show win0_6.index t 0 * 4 + 1 * (y 0).val = (y 0).val; rw [hi]; omega

/-- The box weight's window is the whole weight, narrowed. -/
theorem wrblk_eq (c : Dev nD) (t : Fin cfg0.N) : wrblk m c t = truncf .bf16 (m ((c : Thread nD τ).loc main_arg7)) bitsLt_bf16_f32 := by
  have hi : win0_7.index t 0 = 0 ∧ win0_7.index t 1 = 0 := (by decide +kernel : ∀ t : Fin grid0.N, win0_7.index t 0 = 0 ∧ win0_7.index t 1 = 0) t
  funext y
  unfold wrblk iblk
  rw [View.read_apply]
  show V m c main_v4 _ = _
  rw [entry_main_v4 m c]
  congr 1
  funext a
  apply Fin.ext
  match a with
  | ⟨0, _⟩ => show win0_7.index t 0 * 1024 + 1 * (y 0).val = (y 0).val; rw [hi.1]; omega
  | ⟨1, _⟩ => show win0_7.index t 1 * 12 + 1 * (y 1).val = (y 1).val; rw [hi.2]; omega

/-- The box bias's window is the whole bias. -/
theorem brblk_eq (c : Dev nD) (t : Fin cfg0.N) : brblk m c t = m ((c : Thread nD τ).loc main_arg8) := by
  have hi : win0_8.index t 0 = 0 := (by decide +kernel : ∀ t : Fin grid0.N, win0_8.index t 0 = 0) t
  funext y
  unfold brblk iblk
  rw [View.read_apply]
  show V m c main_arg8 _ = _
  rw [V_main_arg8 m c]
  congr 1
  funext a
  apply Fin.ext
  match a with
  | ⟨0, _⟩ => show win0_8.index t 0 * 12 + 1 * (y 0).val = (y 0).val; rw [hi]; omega

/-! ## The two moving windows -/

/-- The feature block at point `t`, entry `(p, k)`: row `800·(t / 7) + p`, feature `1792·(t % 7) + k` of x (narrowed). -/
theorem xblk_apply (c : Dev nD) (t : Fin cfg0.N) (p : Fin 800) (k : Fin 1792) (r : Fin 16000) (kk : Fin 12544)
    (hr : r.val = 800 * (t.val / 7) + p.val) (hk : kk.val = 1792 * (t.val % 7) + k.val) :
    xblk m c t (ix2 p k) = truncf .bf16 (m ((c : Thread nD τ).loc main_arg0)) bitsLt_bf16_f32 (ix2 r kk) := by
  have hi : win0_0.index t 0 = t.val / 7 ∧ win0_0.index t 1 = t.val % 7 :=
    (by decide +kernel : ∀ t : Fin grid0.N, win0_0.index t 0 = t.val / 7 ∧ win0_0.index t 1 = t.val % 7) t
  unfold xblk iblk
  rw [View.read_apply]
  show V m c main_v0 _ = _
  rw [entry_main_v0 m c]
  congr 1
  funext a
  apply Fin.ext
  match a with
  | ⟨0, _⟩ => show win0_0.index t 0 * 800 + 1 * p.val = r.val; rw [hi.1, hr]; omega
  | ⟨1, _⟩ => show win0_0.index t 1 * 1792 + 1 * k.val = kk.val; rw [hi.2, hk]; omega

/-- The first weight's block at point `t`, entry `(k, i)`: row `1792·(t % 7) + k`, column `i` of W₁ (narrowed). -/
theorem w1blk_apply (c : Dev nD) (t : Fin cfg0.N) (k : Fin 1792) (i : Fin 1024) (kk : Fin 12544)
    (hk : kk.val = 1792 * (t.val % 7) + k.val) :
    w1blk m c t (ix2 k i) = truncf .bf16 (m ((c : Thread nD τ).loc main_arg1)) bitsLt_bf16_f32 (ix2 kk i) := by
  have hi : win0_1.index t 0 = t.val % 7 ∧ win0_1.index t 1 = 0 :=
    (by decide +kernel : ∀ t : Fin grid0.N, win0_1.index t 0 = t.val % 7 ∧ win0_1.index t 1 = 0) t
  unfold w1blk iblk
  rw [View.read_apply]
  show V m c main_v1 _ = _
  rw [entry_main_v1 m c]
  congr 1
  funext a
  apply Fin.ext
  match a with
  | ⟨0, _⟩ => show win0_1.index t 0 * 1792 + 1 * k.val = kk.val; rw [hi.1, hk]; omega
  | ⟨1, _⟩ => show win0_1.index t 1 * 1024 + 1 * i.val = i.val; rw [hi.2]; omega

end Cert.KernelIdeal.Blocks

end
-- ==== Proof.Scratch.lean ====
/-
  The accumulator across the seven stretches of a row tile. Point t of the grid is stretch t % 7 of row tile t / 7.
  The first stretch clears the accumulator and adds its product, every later one adds its product to what the stretch
  before left; so after stretch s the accumulator of a tile holds, entry by entry,

      0 + Σ_{s' ≤ s} Σ_k x[800·tile + p, 1792·s' + k] · W₁[1792·s' + k, i],

  and after the seventh stretch the seven sums of 1792 products are the one sum over all 12544 features: the tile's rows
  of x · W₁. Sums of extended reals may be regrouped freely, so nothing is asked of the terms.
-/
import proofs.«118941_j32427003085530_1_alg».proof.Proof.Gen.KernelIdeal.Value
import proofs.«118941_j32427003085530_1_alg».proof.Proof.Pieces
import proofs.«118941_j32427003085530_1_alg».proof.Proof.Payload
import proofs.«118941_j32427003085530_1_alg».proof.Proof.Blocks
import proofs.«118941_j32427003085530_1_alg».proof.Proof.HeadSpec
import Idealize.ShloMosaic.Lib.Pipeline.Value
import Idealize.ShloMosaic.Lib.ValueIdx

noncomputable section

namespace Cert.KernelIdeal.Scratch

open Cert.KernelIdeal Cert.KernelIdeal.Gen Idealize.ShloMosaic Idealize.ShloMosaic.TcCoe Idealize.SL.Sem Idealize.ShloMosaic.ValueIdx Cert.KernelIdeal.Blocks

section AnyValues

variable {F : FTy → Type} [FloatOps F]
variable (m : (ℓ : Loc nD τ sig) → Buf (Elt F) ℓ)

/-- At a tile's first stretch the accumulator is the cleared block plus the stretch's product, whatever it held. -/
theorem step_first (c : Dev nD) (n : ℕ) (hb : n < cfg0.N) (h0 : n % 7 = 0) (acc : Vec F S800x1024 .f32) :
    Value.scAt0_0 m c n hb acc = k0_pay2 k0_pay1 (xblk m c ⟨n, hb⟩) (w1blk m c ⟨n, hb⟩) := by
  have h1 : ¬n % 7 = 6 := by omega
  unfold Value.scAt0_0
  rw [dif_pos h0, dif_neg h1]
  exact Pieces.acc_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N))

/-- At every later stretch it is what the stretch before left plus the stretch's product. -/
theorem step_later (c : Dev nD) (n : ℕ) (hb : n < cfg0.N) (h0 : ¬n % 7 = 0) (acc : Vec F S800x1024 .f32) :
    Value.scAt0_0 m c n hb acc = k0_pay2 acc (xblk m c ⟨n, hb⟩) (w1blk m c ⟨n, hb⟩) := by
  unfold Value.scAt0_0
  rw [dif_neg h0]
  by_cases h1 : n % 7 = 6
  · rw [dif_pos h1]
    exact Pieces.acc_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) acc
  · rw [dif_neg h1]
    exact Pieces.acc_middle c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) acc

/-- At a tile's last stretch the accumulator the two heads read is the one the stretch leaves. -/
theorem acc_after_last (c : Dev nD) (t : Fin cfg0.N) (h0 : ¬t.val % 7 = 0) (h6 : t.val % 7 = 6) :
    k0_pay2 (outsAt0 m c (t.val - 1) (Nat.lt_of_le_of_lt (Nat.sub_le _ _) t.isLt)).2.2 (xblk m c t) (w1blk m c t)
      = (outsAt0 m c t.val t.isLt).2.2 := by
  rw [outsAt0_C m c t h0 h6]
  dsimp only
  exact (Pieces.acc_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) _ _ (iblk m c 0 t) (iblk m c 1 t) (iblk m c 2 t) (iblk m c 3 t) (iblk m c 4 t) (iblk m c 5 t) (iblk m c 6 t) (iblk m c 7 t) (iblk m c 8 t) _).symm

end AnyValues

section ExtendedReals

variable (m : (ℓ : Loc nD τ sig) → Buf (Elt Ideal) ℓ)

/-- Stretch `n`'s product at entry `i` of the tile's block (zero past the grid, where nothing is read). -/
def prodAt (c : Dev nD) (n : ℕ) (i : S800x1024.Idx) : EReal :=
  if h : n < cfg0.N then
    ∑ k : Fin 1792, xblk m c ⟨n, h⟩ (ix2 ⟨(i 0).val, idx2_lt0 i⟩ k) * w1blk m c ⟨n, h⟩ (ix2 k ⟨(i 1).val, idx2_lt1 i⟩)
  else 0

theorem prodAt_ix2 (c : Dev nD) (n : ℕ) (h : n < cfg0.N) (p : Fin 800) (i : Fin 1024) :
    prodAt m c n (ix2 p i) = ∑ k : Fin 1792, xblk m c ⟨n, h⟩ (ix2 p k) * w1blk m c ⟨n, h⟩ (ix2 k i) := by
  unfold prodAt
  rw [dif_pos h]

/-- The cleared block is zero everywhere. -/
theorem cleared_apply (i : S800x1024.Idx) : k0_pay1 (F := Ideal) i = Pay.zero := by
  unfold k0_pay1
  simp only [shapeCast_self]
  rfl

/-- After stretch `t % 7` of its tile the accumulator holds zero plus the products of the tile's stretches so far. -/
theorem acc_apply (c : Dev nD) (t : Fin cfg0.N) (i : S800x1024.Idx) :
    (outsAt0 m c t.val t.isLt).2.2 i
      = Pay.zero + ∑ s ∈ Finset.range (t.val % 7 + 1), prodAt m c (7 * (t.val / 7) + s) i := by
  rw [Value.soutsAt0_0_eq m c t]
  have hN : cfg0.N = 140 := N_0
  refine Pipeline.accAt_add_apply (N := cfg0.N) (ι := S800x1024.Idx) (β := EReal) _ _ (fun _ => Pay.zero) (prodAt m c) (7 * (t.val / 7)) 6 ?_ ?_
    (t.val % 7) (by omega) _ i
  · intro h j
    obtain ⟨p, q, rfl⟩ : ∃ (p : Fin 800) (q : Fin 1024), j = ix2 p q := ⟨j 0, j 1, eq_ix2 j⟩
    rw [step_first m c _ h (by omega), Pay.step_apply, cleared_apply, prodAt_ix2 m c _ h]
  · intro n h acc j hlt hle
    obtain ⟨p, q, rfl⟩ : ∃ (p : Fin 800) (q : Fin 1024), j = ix2 p q := ⟨j 0, j 1, eq_ix2 j⟩
    rw [step_later m c n h (by omega), Pay.step_apply, prodAt_ix2 m c n h]

/-- After a tile's seventh stretch the accumulator holds the tile's rows of `x · W₁`. -/
theorem acc_full (c : Dev nD) (t : Fin cfg0.N) (h6 : t.val % 7 = 6) (p : Fin 800) (i : Fin 1024) (r : Fin 16000)
    (hr : r.val = 800 * (t.val / 7) + p.val) :
    (outsAt0 m c t.val t.isLt).2.2 (ix2 p i)
      = HeadSpec.lin1 (m ((c : Thread nD τ).loc main_arg0)) (m ((c : Thread nD τ).loc main_arg1)) r i := by
  have hN : cfg0.N = 140 := N_0
  have ht := t.isLt
  rw [acc_apply, h6, Finset.sum_range, show Pay.zero = (0 : EReal) from Ideal.ofBits_zero_f32, zero_add]
  unfold HeadSpec.lin1
  rw [HeadSpec.sum_stretches]
  refine Finset.sum_congr rfl fun s _ => ?_
  have hs := s.isLt
  have hlt : 7 * (t.val / 7) + s.val < cfg0.N := by omega
  rw [prodAt_ix2 m c _ hlt]
  refine Finset.sum_congr rfl fun k _ => ?_
  have hk := k.isLt
  rw [xblk_apply m c ⟨_, hlt⟩ p k r ⟨1792 * s.val + k.val, by omega⟩ (by show r.val = 800 * ((7 * (t.val / 7) + s.val) / 7) + p.val; omega)
      (by show 1792 * s.val + k.val = 1792 * ((7 * (t.val / 7) + s.val) % 7) + k.val; omega),
    w1blk_apply m c ⟨_, hlt⟩ k i ⟨1792 * s.val + k.val, by omega⟩
      (by show 1792 * s.val + k.val = 1792 * ((7 * (t.val / 7) + s.val) % 7) + k.val; omega)]
  rfl

end ExtendedReals

end Cert.KernelIdeal.Scratch

end
-- ==== Proof.Final.lean ====
/-
  The two result arrays after the call. Only a tile's last stretch stores the two result blocks, and only there are they
  written back: block (tile, 0) of each result. By then the accumulator holds the tile's rows of x · W₁, so the class
  block at (p, q) is Σⱼ max (Σᵢ max ((x · W₁)[r, i] + b₁[i]) 0 · W₂[i, j] + b₂[j]) 0 · W_class[j, q] + b_class[q]
  at row r = 800·tile + p, which is the specification's class layer there; likewise the box block. The twenty tiles'
  last stretches cover all 16000 rows, so each result array is the specification's layer.
-/
import proofs.«118941_j32427003085530_1_alg».proof.Proof.Gen.KernelIdeal.Value
import proofs.«118941_j32427003085530_1_alg».proof.Proof.Pieces
import proofs.«118941_j32427003085530_1_alg».proof.Proof.Payload
import proofs.«118941_j32427003085530_1_alg».proof.Proof.Blocks
import proofs.«118941_j32427003085530_1_alg».proof.Proof.Scratch
import proofs.«118941_j32427003085530_1_alg».proof.Proof.HeadSpec
import Idealize.ShloMosaic.Lib.Pipeline.Value
import Idealize.ShloMosaic.Lib.ValueIdx

noncomputable section

namespace Cert.KernelIdeal.Final

open Cert.KernelIdeal Cert.KernelIdeal.Gen Idealize.ShloMosaic Idealize.ShloMosaic.TcCoe Idealize.SL.Sem Idealize.ShloMosaic.ValueIdx Cert.KernelIdeal.Blocks

variable (m : (ℓ : Loc nD τ sig) → Buf (Elt Ideal) ℓ) (ρ : Dev nD → PrngReg)

/-- The specification's class layer of the arguments. -/
abbrev clsArr (c : Dev nD) : S16000x4.Idx → EReal :=
  HeadSpec.outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The specification's box layer of the arguments. -/
abbrev boxArr (c : Dev nD) : S16000x12.Idx → EReal :=
  HeadSpec.outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))

/-- The second hidden layer of a tile at its last stretch is the specification's, at the tile's rows. -/
theorem hidden_eq (c : Dev nD) (t : Fin cfg0.N) (h6 : t.val % 7 = 6) (p : Fin 800) (j : Fin 1024) (r : Fin 16000)
    (hr : r.val = 800 * (t.val / 7) + p.val) :
    k0_pay3 (F := Ideal) (outsAt0 m c t.val t.isLt).2.2 (b1blk m c t) (w2blk m c t) (b2blk m c t) (ix2 p j)
      = HeadSpec.hid2 (m ((c : Thread nD τ).loc main_arg0)) (m ((c : Thread nD τ).loc main_arg1)) (m ((c : Thread nD τ).loc main_arg2)) (m ((c : Thread nD τ).loc main_arg3)) (m ((c : Thread nD τ).loc main_arg4)) r j := by
  rw [Pay.hidden_apply, b1blk_eq, w2blk_eq, b2blk_eq]
  unfold HeadSpec.hid2 HeadSpec.hid1
  simp only [fun i => Scratch.acc_full m c t h6 p i r hr, truncf_apply]

/-- What a tile's last stretch writes back to the class array is the tile's rows of the specification's class layer. -/
theorem flushed9_eq (c : Dev nD) (t : Fin cfg0.N) (hf : (cfg0.win 9).flush t = true) :
    (dats m 0 c).flushed 9 t = ((cfg0.win 9).blk t).view.read (Elt Ideal) (clsArr m c) := by
  have h6 : t.val % 7 = 6 := (flush0_9 t).mp hf
  have h0 : ¬t.val % 7 = 0 := by omega
  have hN : cfg0.N = 140 := N_0
  have ht := t.isLt
  have hi : win0_9.index t 0 = t.val / 7 ∧ win0_9.index t 1 = 0 :=
    (by decide +kernel : ∀ t : Fin grid0.N, win0_9.index t 0 = t.val / 7 ∧ win0_9.index t 1 = 0) t
  rw [Value.flushed9_C m c t h0 h6,
    Pieces.cls_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) _ _ (iblk m c 0 t) (iblk m c 1 t) (iblk m c 2 t) (iblk m c 3 t) (iblk m c 4 t) (iblk m c 5 t) (iblk m c 6 t) (iblk m c 7 t) (iblk m c 8 t) _,
    Scratch.acc_after_last m c t h0 h6]
  funext j
  obtain ⟨p, q, rfl⟩ : ∃ (p : Fin 800) (q : Fin 4), j = ix2 p q := ⟨j 0, j 1, eq_ix2 j⟩
  have hp := p.isLt
  have he : ((cfg0.win 9).blk t).view.emb (ix2 p q) = ix2 (⟨800 * (t.val / 7) + p.val, by omega⟩ : Fin 16000) q := by
    funext a
    apply Fin.ext
    match a with
    | ⟨0, _⟩ => show win0_9.index t 0 * 800 + 1 * p.val = 800 * (t.val / 7) + p.val; rw [hi.1]; omega
    | ⟨1, _⟩ => show win0_9.index t 1 * 4 + 1 * q.val = q.val; rw [hi.2]; omega
  show k0_pay4 (F := Ideal) (outsAt0 m c t.val t.isLt).2.2 (b1blk m c t) (w2blk m c t) (b2blk m c t) (wcblk m c t) (bcblk m c t) (ix2 p q)
    = clsArr m c (((cfg0.win 9).blk t).view.emb (ix2 p q))
  rw [he]
  unfold clsArr
  rw [HeadSpec.outArr_ix2, Pay.cls_apply, wcblk_eq, bcblk_eq]
  unfold HeadSpec.outAt
  simp only [fun j => hidden_eq m c t h6 p j (⟨800 * (t.val / 7) + p.val, by omega⟩ : Fin 16000) rfl, truncf_apply]

/-- An entry of the class array lies in point `t`'s block iff each coordinate lies in the block's range on its axis. -/
theorem mem_blk9 (t : Fin cfg0.N) (i : S16000x4.Idx) :
    i ∈ ((cfg0.win 9).blk t).view.set ↔ ∀ a : Fin 2, win0_9.index t a * S800x4.size a ≤ (i a).val ∧ (i a).val < win0_9.index t a * S800x4.size a + S800x4.size a := by
  show i ∈ ((View.whole main_v5_0).slice (win0_9.rect t)).set ↔ _
  rw [View.set_slice_whole, Rect.mem_set_unit]
  exact Iff.rfl

/-- Every row of the class array is written back by the last stretch of its row tile. -/
theorem cover9 (i : S16000x4.Idx) : ∃ t : Fin cfg0.N, (cfg0.win 9).flush t = true ∧ i ∈ ((cfg0.win 9).blk t).view.set := by
  have hN : cfg0.N = 140 := N_0
  have hi0 : (i 0).val < 16000 := (i 0).isLt
  have hi1 : (i 1).val < 4 := (i 1).isLt
  let t : Fin cfg0.N := ⟨7 * ((i 0).val / 800) + 6, by omega⟩
  have hx : win0_9.index t 0 = t.val / 7 ∧ win0_9.index t 1 = 0 :=
    (by decide +kernel : ∀ t : Fin grid0.N, win0_9.index t 0 = t.val / 7 ∧ win0_9.index t 1 = 0) t
  have htv : t.val = 7 * ((i 0).val / 800) + 6 := rfl
  refine ⟨t, (flush0_9 t).mpr (by omega), ?_⟩
  rw [mem_blk9]
  intro a
  match a with
  | ⟨0, _⟩ => show win0_9.index t 0 * 800 ≤ (i 0).val ∧ (i 0).val < win0_9.index t 0 * 800 + 800; rw [hx.1]; omega
  | ⟨1, _⟩ => show win0_9.index t 1 * 4 ≤ (i 1).val ∧ (i 1).val < win0_9.index t 1 * 4 + 4; rw [hx.2]; omega

/-- So the class array ends holding the specification's class layer. -/
theorem final9 (c : Dev nD) : (dats m 0 c).arrAt 9 cfg0.N = clsArr m c :=
  (dats m 0 c).arrAt_eq_of_cover 9 (clsArr m c) (flushed9_eq m c) cover9

/-- What a tile's last stretch writes back to the box array is the tile's rows of the specification's box layer. -/
theorem flushed10_eq (c : Dev nD) (t : Fin cfg0.N) (hf : (cfg0.win 10).flush t = true) :
    (dats m 0 c).flushed 10 t = ((cfg0.win 10).blk t).view.read (Elt Ideal) (boxArr m c) := by
  have h6 : t.val % 7 = 6 := (flush0_10 t).mp hf
  have h0 : ¬t.val % 7 = 0 := by omega
  have hN : cfg0.N = 140 := N_0
  have ht := t.isLt
  have hi : win0_10.index t 0 = t.val / 7 ∧ win0_10.index t 1 = 0 :=
    (by decide +kernel : ∀ t : Fin grid0.N, win0_10.index t 0 = t.val / 7 ∧ win0_10.index t 1 = 0) t
  rw [Value.flushed10_C m c t h0 h6,
    Pieces.box_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) _ _ (iblk m c 0 t) (iblk m c 1 t) (iblk m c 2 t) (iblk m c 3 t) (iblk m c 4 t) (iblk m c 5 t) (iblk m c 6 t) (iblk m c 7 t) (iblk m c 8 t) _,
    Scratch.acc_after_last m c t h0 h6]
  funext j
  obtain ⟨p, q, rfl⟩ : ∃ (p : Fin 800) (q : Fin 12), j = ix2 p q := ⟨j 0, j 1, eq_ix2 j⟩
  have hp := p.isLt
  have he : ((cfg0.win 10).blk t).view.emb (ix2 p q) = ix2 (⟨800 * (t.val / 7) + p.val, by omega⟩ : Fin 16000) q := by
    funext a
    apply Fin.ext
    match a with
    | ⟨0, _⟩ => show win0_10.index t 0 * 800 + 1 * p.val = 800 * (t.val / 7) + p.val; rw [hi.1]; omega
    | ⟨1, _⟩ => show win0_10.index t 1 * 12 + 1 * q.val = q.val; rw [hi.2]; omega
  show k0_pay5 (F := Ideal) (outsAt0 m c t.val t.isLt).2.2 (b1blk m c t) (w2blk m c t) (b2blk m c t) (wrblk m c t) (brblk m c t) (ix2 p q)
    = boxArr m c (((cfg0.win 10).blk t).view.emb (ix2 p q))
  rw [he]
  unfold boxArr
  rw [HeadSpec.outArr_ix2, Pay.box_apply, wrblk_eq, brblk_eq]
  unfold HeadSpec.outAt
  simp only [fun j => hidden_eq m c t h6 p j (⟨800 * (t.val / 7) + p.val, by omega⟩ : Fin 16000) rfl, truncf_apply]

/-- An entry of the box array lies in point `t`'s block iff each coordinate lies in the block's range on its axis. -/
theorem mem_blk10 (t : Fin cfg0.N) (i : S16000x12.Idx) :
    i ∈ ((cfg0.win 10).blk t).view.set ↔ ∀ a : Fin 2, win0_10.index t a * S800x12.size a ≤ (i a).val ∧ (i a).val < win0_10.index t a * S800x12.size a + S800x12.size a := by
  show i ∈ ((View.whole main_v5_1).slice (win0_10.rect t)).set ↔ _
  rw [View.set_slice_whole, Rect.mem_set_unit]
  exact Iff.rfl

/-- Every row of the box array is written back by the last stretch of its row tile. -/
theorem cover10 (i : S16000x12.Idx) : ∃ t : Fin cfg0.N, (cfg0.win 10).flush t = true ∧ i ∈ ((cfg0.win 10).blk t).view.set := by
  have hN : cfg0.N = 140 := N_0
  have hi0 : (i 0).val < 16000 := (i 0).isLt
  have hi1 : (i 1).val < 12 := (i 1).isLt
  let t : Fin cfg0.N := ⟨7 * ((i 0).val / 800) + 6, by omega⟩
  have hx : win0_10.index t 0 = t.val / 7 ∧ win0_10.index t 1 = 0 :=
    (by decide +kernel : ∀ t : Fin grid0.N, win0_10.index t 0 = t.val / 7 ∧ win0_10.index t 1 = 0) t
  have htv : t.val = 7 * ((i 0).val / 800) + 6 := rfl
  refine ⟨t, (flush0_10 t).mpr (by omega), ?_⟩
  rw [mem_blk10]
  intro a
  match a with
  | ⟨0, _⟩ => show win0_10.index t 0 * 800 ≤ (i 0).val ∧ (i 0).val < win0_10.index t 0 * 800 + 800; rw [hx.1]; omega
  | ⟨1, _⟩ => show win0_10.index t 1 * 12 ≤ (i 1).val ∧ (i 1).val < win0_10.index t 1 * 12 + 12; rw [hx.2]; omega

/-- So the box array ends holding the specification's box layer. -/
theorem final10 (c : Dev nD) : (dats m 0 c).arrAt 10 cfg0.N = boxArr m c :=
  (dats m 0 c).arrAt_eq_of_cover 10 (boxArr m c) (flushed10_eq m c) cover10

/-- The kernel's run: both results at the specification's layers of the arguments, the arguments unchanged. -/
theorem run : θ_run defs (onTc (τ := τ) (main (F := Ideal))) ⟨m, fun _ => 0, ρ⟩ fun r => ∀ c : Dev nD,
      r.2.mem ((c : Thread nD τ).loc main_v5_0) = clsArr m c
      ∧ r.2.mem ((c : Thread nD τ).loc main_v5_1) = boxArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final9 m c), (h c).2.1.trans (final10 m c), (h c).2.2⟩)
    (Value.run_blocks m ρ)

end Cert.KernelIdeal.Final

end
-- ==== Proof.lean ====
/-
  The dense detection head: a tiled kernel against its plain reference.

  Both programs compute, for each of 16000 rows r,
      hidden₁ = max (x · W₁ + b₁) 0,   hidden₂ = max (hidden₁ · W₂ + b₂) 0,
      class = hidden₂ · W_class + b_class,   box = hidden₂ · W_box + b_box.
  The kernel narrows x and the weights to bf16 on the way in, walks twenty row tiles of 800 rows, and for each tile
  adds up x · W₁ over seven stretches of 1792 features in an accumulator that it clears at the first stretch; at the
  seventh it applies the rest of the head to the finished accumulator and writes the tile's two result blocks back.
  Over the extended reals a change of float format changes nothing and a product of the matrix unit into a zero
  accumulator is the plain sum of products, so the only difference between the two programs is that the kernel takes
  the sum over the 12544 features as seven consecutive partial sums. Addition of extended reals is commutative and
  associative, so the two agree for every input and the precondition is never opened.

  The frames of the two kernel programs are the generated ones; the reference's frame is its generated run with the
  results dropped; the idealization rewrote nothing. For the value claim, both runs end with each result at the same
  function of the arguments (HeadSpec): the reference by reading its operations one at a time (RefSpec), the kernel by
  reading what each run of its body leaves (Pieces, Payload), what each window holds (Blocks), the accumulator over a
  tile's stretches (Scratch) and the blocks written back (Final).
-/
import proofs.«118941_j32427003085530_1_alg».proof.Defs
import proofs.«118941_j32427003085530_1_alg».proof.Proof.Gen.Kernel
import proofs.«118941_j32427003085530_1_alg».proof.Proof.Gen.Kernel.Skeleton
import proofs.«118941_j32427003085530_1_alg».proof.Proof.Gen.Kernel.Launch
import proofs.«118941_j32427003085530_1_alg».proof.Proof.Gen.Kernel.Points
import proofs.«118941_j32427003085530_1_alg».proof.Proof.Gen.Kernel.Frame
import proofs.«118941_j32427003085530_1_alg».proof.Proof.Gen.KernelIdeal
import proofs.«118941_j32427003085530_1_alg».proof.Proof.Gen.KernelIdeal.Skeleton
import proofs.«118941_j32427003085530_1_alg».proof.Proof.Gen.KernelIdeal.Launch
import proofs.«118941_j32427003085530_1_alg».proof.Proof.Gen.KernelIdeal.Points
import proofs.«118941_j32427003085530_1_alg».proof.Proof.Gen.KernelIdeal.Frame
import proofs.«118941_j32427003085530_1_alg».proof.Proof.Gen.ReferenceIdeal
import proofs.«118941_j32427003085530_1_alg».proof.Proof.Gen.Pre_finite_inputs
import proofs.«118941_j32427003085530_1_alg».proof.Proof.Gen.KernelIdeal.Value
import proofs.«118941_j32427003085530_1_alg».proof.Proof.Gen.ReferenceIdeal.Run
import proofs.«118941_j32427003085530_1_alg».proof.Proof.Gen.ReferenceIdeal.Read
import proofs.«118941_j32427003085530_1_alg».proof.Proof.RefSpec
import proofs.«118941_j32427003085530_1_alg».proof.Proof.Final
import Idealize.ShloMosaic.Adequacy
import Idealize.ShloMosaic.Init

noncomputable section

namespace Cert.Proof

open Idealize.ShloMosaic Idealize.SL.Sem

/-- The kernel as printed runs, faults nowhere and leaves its arguments alone. -/
theorem frame_kernel : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the results forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- Both programs end with the class and the box arrays at the specification's layers of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Final.clsArr m c, fun c => Cert.KernelIdeal.Final.boxArr m c,
    Cert.KernelIdeal.Final.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v13_eq, Cert.ReferenceIdeal.RefSpec.cls_eq]
    obtain ⟨e0, e1, e2, e3, e4, e5, e6, e7, e8⟩ := hagree c
    show Cert.HeadSpec.outArr _ _ _ _ _ _ _ = Cert.HeadSpec.outArr _ _ _ _ _ _ _
    rw [e0, e1, e2, e3, e4, e5, e6]
  · rw [Cert.ReferenceIdeal.Read.val_main_v17_eq, Cert.ReferenceIdeal.RefSpec.box_eq]
    obtain ⟨e0, e1, e2, e3, e4, e5, e6, e7, e8⟩ := hagree c
    show Cert.HeadSpec.outArr _ _ _ _ _ _ _ = Cert.HeadSpec.outArr _ _ _ _ _ _ _
    rw [e0, e1, e2, e3, e4, e7, e8]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
